-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x256 : Shape := ⟨2, ![128, 256]⟩
abbrev S64x256 : Shape := ⟨2, ![64, 256]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S64x256 : S_.BroadcastsInDim S64x256 (![] : Fin 0 → Fin S64x256.rank)
  reducesTo_S64x256_S_d0_1 : S64x256.ReducesTo [0, 1] S_

variable [Facts]

def fn {F : FTy → Type} [FloatOps F] (main_arg0 : FVec F S100000x128 .f32) (main_arg1 : IVec S1600000 32) (main_arg2 : IVec S1600000 32) (main_arg3 : FVec F S128x256 .f32) (main_arg4 : FVec F S64x256 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x256 .f32 := Host.absf main_arg3
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S64x256 .f32 := Host.absf main_arg4
  let main_cst_2 : FVec F S_ .f32 := constant S_ .f32 0x7F800000#32
  let main_v10 : FVec F S64x256 .f32 := broadcastInDim S64x256 ![] bcast_S_S64x256 main_cst_2
  let main_v11 : IVec S64x256 1 := cmpf .olt main_v9 main_v10
  let main_c_3 : IVec S_ 1 := constantI S_ 1 1#1
  let main_v12 : IVec S_ 1 := (fun x v => Host.reduce IntOp.andi x v reducesTo_S64x256_S_d0_1 h_S_) main_v11 main_c_3
  let main_v13 : IVec S_ 1 := andi main_v8 main_v12
  main_v13
-- ==== Kernel.lean ====
abbrev S100000x128 : Shape := ⟨2, ![100000, 128]⟩
abbrev S1600000 : Shape := ⟨1, ![1600000]⟩
abbrev S128x256 : Shape := ⟨2, ![128, 256]⟩
abbrev S64x256 : Shape := ⟨2, ![64, 256]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S128x128 : Shape := ⟨2, ![128, 128]⟩
abbrev S5000x128 : Shape := ⟨2, ![5000, 128]⟩
abbrev S64x128 : Shape := ⟨2, ![64, 128]⟩
abbrev S128x64 : Shape := ⟨2, ![128, 64]⟩
abbrev S100000x64 : Shape := ⟨2, ![100000, 64]⟩
abbrev S5000x64 : Shape := ⟨2, ![5000, 64]⟩

abbrev nBuf : Space → Nat
  | .hbm => 65
  | .vmem => 16
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x256, .f32⟩
  | .hbm, ⟨4, _⟩ => ⟨S64x256, .f32⟩
  | .hbm, ⟨5, _⟩ => ⟨S_, .i32⟩
  | .hbm, ⟨6, _⟩ => ⟨S1600000, .i32⟩
  | .hbm, ⟨7, _⟩ => ⟨S1600000, .i1⟩
  | .hbm, ⟨8, _⟩ => ⟨S_, .i32⟩
  | .hbm, ⟨9, _⟩ => ⟨S1600000, .i32⟩
  | .hbm, ⟨10, _⟩ => ⟨S1600000, .i32⟩
  | .hbm, ⟨11, _⟩ => ⟨S1600000, .i32⟩
  | .hbm, ⟨12, _⟩ => ⟨S1600000x1, .i32⟩
  | .hbm, ⟨13, _⟩ => ⟨S1600000x128, .f32⟩
  | .hbm, ⟨14, _⟩ => ⟨S_, .f32⟩
  | .hbm, ⟨15, _⟩ => ⟨S100000x128, .f32⟩
  | .hbm, ⟨16, _⟩ => ⟨S1600000x1, .i32⟩
  | .hbm, ⟨17, _⟩ => ⟨S100000x128, .f32⟩
  | .hbm, ⟨18, _⟩ => ⟨S_, .f32⟩
  | .hbm, ⟨19, _⟩ => ⟨S1600000, .f32⟩
  | .hbm, ⟨20, _⟩ => ⟨S_, .f32⟩
  | .hbm, ⟨21, _⟩ => ⟨S100000, .f32⟩
  | .hbm, ⟨22, _⟩ => ⟨S1600000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S100000x128, .f32⟩
  | .hbm, ⟨29, _⟩ => ⟨S100000x128, .f32⟩
  | .hbm, ⟨30, _⟩ => ⟨S128x128, .f32⟩
  | .hbm, ⟨31, _⟩ => ⟨S128x128, .f32⟩
  | .hbm, ⟨32, _⟩ => ⟨S128x128, .f32⟩
  | .hbm, ⟨33, _⟩ => ⟨S128x128, .f32⟩
  | .hbm, ⟨34, _⟩ => ⟨S100000x128, .f32⟩
  | .hbm, ⟨35, _⟩ => ⟨S_, .i32⟩
  | .hbm, ⟨36, _⟩ => ⟨S1600000, .i32⟩
  | .hbm, ⟨37, _⟩ => ⟨S1600000, .i1⟩
  | .hbm, ⟨38, _⟩ => ⟨S_, .i32⟩
  | .hbm, ⟨39, _⟩ => ⟨S1600000, .i32⟩
  | .hbm, ⟨40, _⟩ => ⟨S1600000, .i32⟩
  | .hbm, ⟨41, _⟩ => ⟨S1600000, .i32⟩
  | .hbm, ⟨42, _⟩ => ⟨S1600000x1, .i32⟩
  | .hbm, ⟨43, _⟩ => ⟨S1600000x128, .f32⟩
  | .hbm, ⟨44, _⟩ => ⟨S_, .f32⟩
  | .hbm, ⟨45, _⟩ => ⟨S100000x128, .f32⟩
  | .hbm, ⟨46, _⟩ => ⟨S1600000x1, .i32⟩
  | .hbm, ⟨47, _⟩ => ⟨S100000x128, .f32⟩
  | .hbm, ⟨48, _⟩ => ⟨S_, .f32⟩
  | .hbm, ⟨49, _⟩ => ⟨S1600000, .f32⟩
  | .hbm, ⟨50, _⟩ => ⟨S_, .f32⟩
  | .hbm, ⟨51, _⟩ => ⟨S100000, .f32⟩
  | .hbm, ⟨52, _⟩ => ⟨S1600000x1, .i32⟩
  | .hbm, ⟨53, _⟩ => ⟨S100000, .f32⟩
  | .hbm, ⟨54, _⟩ => ⟨S_, .f32⟩
  | .hbm, ⟨55, _⟩ => ⟨S100000, .f32⟩
  | .hbm, ⟨56, _⟩ => ⟨S100000, .f32⟩
  | .hbm, ⟨57, _⟩ => ⟨S100000x1, .f32⟩
  | .hbm, ⟨58, _⟩ => ⟨S100000x128, .f32⟩
  | .hbm, ⟨59, _⟩ => ⟨S100000x128, .f32⟩
  | .hbm, ⟨60, _⟩ => ⟨S64x128, .f32⟩
  | .hbm, ⟨61, _⟩ => ⟨S128x64, .f32⟩
  | .hbm, ⟨62, _⟩ => ⟨S64x128, .f32⟩
  | .hbm, ⟨63, _⟩ => ⟨S128x64, .f32⟩
  | .hbm, ⟨64, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x64, .f32⟩
  | .local _ .vmem, ⟨13, _⟩ => ⟨S128x64, .f32⟩
  | .local _ .vmem, ⟨14, _⟩ => ⟨S5000x64, .f32⟩
  | .local _ .vmem, ⟨15, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_c_4 : Ref sig .tc := ⟨.hbm, 35, rfl⟩
abbrev main_v24 : Ref sig .tc := ⟨.hbm, 36, rfl⟩
abbrev main_v25 : Ref sig .tc := ⟨.hbm, 37, rfl⟩
abbrev main_c_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_6 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_7 : Ref sig .tc := ⟨.hbm, 48, rfl⟩
abbrev main_v34 : Ref sig .tc := ⟨.hbm, 49, rfl⟩
abbrev main_cst_8 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_9 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  slices_S128x256_S128x128_0_0 : S128x256.Slices ![0, 0] S128x128
  transposes_S128x128_S128x128_1_0 : S128x128.Transposes [1, 0] S128x128
  slices_S128x256_S128x128_0_128 : S128x256.Slices ![0, 128] S128x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S5000x128_S5000x128 : S5000x128.ShapeCasts S5000x128
  slices_S64x256_S64x128_0_0 : S64x256.Slices ![0, 0] S64x128
  transposes_S64x128_S128x64_1_0 : S64x128.Transposes [1, 0] S128x64
  slices_S64x256_S64x128_0_128 : S64x256.Slices ![0, 128] S64x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S5000x64_S5000x64_0_0 : ∀ a, (![0, 0] : Fin 2 → Nat) a + S5000x64.size a ≤ S5000x64.size a
  h_S5000x64 : 0 < S5000x64.numel
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S100000x128.size a
  hwx0_4 : ∀ i : grid0.Coords, EltTy.bits .f32 = 32 ∨ (Rect.block (s := S100000x128) S5000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S100000x64.size a
  hwx1_4 : ∀ i : grid1.Coords, EltTy.bits .f32 = 32 ∨ (Rect.block (s := S100000x64) S5000x64.size (cc1_transform_4 i) (hinb1_4 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v23) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v42) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v44) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v46) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v47) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x256 : Shape := ⟨2, ![128, 256]⟩
abbrev S64x256 : Shape := ⟨2, ![64, 256]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S100000x256 : Shape := ⟨2, ![100000, 256]⟩
abbrev S256x128 : Shape := ⟨2, ![256, 128]⟩
abbrev S256x64 : Shape := ⟨2, ![256, 64]⟩
abbrev S100000x64 : Shape := ⟨2, ![100000, 64]⟩

abbrev nBuf : Space → Nat
  | .hbm => 64
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x256, .f32⟩
  | .hbm, ⟨4, _⟩ => ⟨S64x256, .f32⟩
  | .hbm, ⟨5, _⟩ => ⟨S_, .i32⟩
  | .hbm, ⟨6, _⟩ => ⟨S1600000, .i32⟩
  | .hbm, ⟨7, _⟩ => ⟨S1600000, .i1⟩
  | .hbm, ⟨8, _⟩ => ⟨S_, .i32⟩
  | .hbm, ⟨9, _⟩ => ⟨S1600000, .i32⟩
  | .hbm, ⟨10, _⟩ => ⟨S1600000, .i32⟩
  | .hbm, ⟨11, _⟩ => ⟨S1600000, .i32⟩
  | .hbm, ⟨12, _⟩ => ⟨S1600000x1, .i32⟩
  | .hbm, ⟨13, _⟩ => ⟨S1600000x128, .f32⟩
  | .hbm, ⟨14, _⟩ => ⟨S_, .f32⟩
  | .hbm, ⟨15, _⟩ => ⟨S100000x128, .f32⟩
  | .hbm, ⟨16, _⟩ => ⟨S1600000x1, .i32⟩
  | .hbm, ⟨17, _⟩ => ⟨S100000x128, .f32⟩
  | .hbm, ⟨18, _⟩ => ⟨S_, .f32⟩
  | .hbm, ⟨19, _⟩ => ⟨S1600000, .f32⟩
  | .hbm, ⟨20, _⟩ => ⟨S_, .f32⟩
  | .hbm, ⟨21, _⟩ => ⟨S100000, .f32⟩
  | .hbm, ⟨22, _⟩ => ⟨S1600000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S100000x128, .f32⟩
  | .hbm, ⟨29, _⟩ => ⟨S100000x128, .f32⟩
  | .hbm, ⟨30, _⟩ => ⟨S100000x256, .f32⟩
  | .hbm, ⟨31, _⟩ => ⟨S256x128, .f32⟩
  | .hbm, ⟨32, _⟩ => ⟨S100000x128, .f32⟩
  | .hbm, ⟨33, _⟩ => ⟨S_, .f32⟩
  | .hbm, ⟨34, _⟩ => ⟨S100000x128, .f32⟩
  | .hbm, ⟨35, _⟩ => ⟨S100000x128, .f32⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000x128, .f32⟩
  | .hbm, ⟨45, _⟩ => ⟨S_, .f32⟩
  | .hbm, ⟨46, _⟩ => ⟨S100000x128, .f32⟩
  | .hbm, ⟨47, _⟩ => ⟨S1600000x1, .i32⟩
  | .hbm, ⟨48, _⟩ => ⟨S100000x128, .f32⟩
  | .hbm, ⟨49, _⟩ => ⟨S_, .f32⟩
  | .hbm, ⟨50, _⟩ => ⟨S1600000, .f32⟩
  | .hbm, ⟨51, _⟩ => ⟨S_, .f32⟩
  | .hbm, ⟨52, _⟩ => ⟨S100000, .f32⟩
  | .hbm, ⟨53, _⟩ => ⟨S1600000x1, .i32⟩
  | .hbm, ⟨54, _⟩ => ⟨S100000, .f32⟩
  | .hbm, ⟨55, _⟩ => ⟨S_, .f32⟩
  | .hbm, ⟨56, _⟩ => ⟨S100000, .f32⟩
  | .hbm, ⟨57, _⟩ => ⟨S100000, .f32⟩
  | .hbm, ⟨58, _⟩ => ⟨S100000x1, .f32⟩
  | .hbm, ⟨59, _⟩ => ⟨S100000x128, .f32⟩
  | .hbm, ⟨60, _⟩ => ⟨S100000x128, .f32⟩
  | .hbm, ⟨61, _⟩ => ⟨S100000x256, .f32⟩
  | .hbm, ⟨62, _⟩ => ⟨S256x64, .f32⟩
  | .hbm, ⟨63, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_call0_cst : Ref sig .tc := ⟨.hbm, 33, rfl⟩
abbrev main_call0_v0 : Ref sig .tc := ⟨.hbm, 34, rfl⟩
abbrev main_v22 : Ref sig .tc := ⟨.hbm, 35, rfl⟩
abbrev main_c_4 : Ref sig .tc := ⟨.hbm, 36, rfl⟩
abbrev main_v23 : Ref sig .tc := ⟨.hbm, 37, rfl⟩
abbrev main_v24 : Ref sig .tc := ⟨.hbm, 38, rfl⟩
abbrev main_c_5 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_6 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_7 : Ref sig .tc := ⟨.hbm, 49, rfl⟩
abbrev main_v33 : Ref sig .tc := ⟨.hbm, 50, rfl⟩
abbrev main_cst_8 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_9 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  concatenates_S100000x128_S100000x128_S100000x256_d1 : Shape.Concatenates [S100000x128, S100000x128] S100000x256 1
  transposes_S128x256_S256x128_1_0 : S128x256.Transposes [1, 0] S256x128
  transposes_S64x256_S256x64_1_0 : S64x256.Transposes [1, 0] S256x64
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x256_S256x128_S100000x128_1_0_0_1_n_n_wf : DotDims.WF S100000x256 S256x128 S100000x128 [1] [0] [0] [1] [] []
  dot_S100000x256_S256x64_S100000x64_1_0_0_1_n_n_wf : DotDims.WF S100000x256 S256x64 S100000x64 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf

class Facts : Prop extends Facts₀ where

variable [Facts]
-- ==== Proof.LibPlainDot.lean ====
/-
  A plain matrix product read at an entry.

  For dimension numbers that contract the left operand's second axis with the right operand's first axis, with no
  batch axes — an M×K array times a K×N array — the contraction's sum at the result entry (p, q) is the textbook
  `∑ i : Fin K, lhs (p, i) * rhs (i, q)`.  The statement is for ANY such record (its well-formedness proof is
  irrelevant), so it serves a kernel's `tpu.matmul` and a host `dot_general` at every size alike.
-/
import Idealize.ShloMosaic.Lib.ValueIdx
import Idealize.ShloMosaic.PureOps.Ideal.Laws

noncomputable section

open scoped BigOperators

namespace PlainDot

open Idealize.ShloMosaic Idealize.ShloMosaic.ValueIdx

variable {M K N : Nat}

/-- The dimension numbers of a plain product: contract axis 1 of the left operand with axis 0 of the right one;
    the left operand's axis 0 and the right operand's axis 1 are the result's axes; nothing is batched. -/
structure IsPlain (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

variable {d : DotDims ⟨2, ![M, K]⟩ ⟨2, ![K, N]⟩ ⟨2, ![M, N]⟩}

/-- The left operand's row coordinate is the result's row. -/
theorem lhs_row (h : IsPlain d) (j : (⟨2, ![M, N]⟩ : Shape).Idx) (k : d.contr.Idx) :
    (d.lhsIdx j k 0 : ℕ) = j 0 := by
  obtain ⟨lc, rc, ln, rn, lb, rb, wf⟩ := d
  obtain ⟨h1, h2, h3, h4, h5, h6⟩ := h
  simp only at h1 h2 h3 h4 h5 h6
  subst h1 h2 h3 h4 h5 h6
  simp [DotDims.lhsIdx]; rfl

/-- The right operand's column coordinate is the result's column. -/
theorem rhs_col (h : IsPlain d) (j : (⟨2, ![M, N]⟩ : Shape).Idx) (k : d.contr.Idx) :
    (d.rhsIdx j k 1 : ℕ) = j 1 := by
  obtain ⟨lc, rc, ln, rn, lb, rb, wf⟩ := d
  obtain ⟨h1, h2, h3, h4, h5, h6⟩ := h
  simp only at h1 h2 h3 h4 h5 h6
  subst h1 h2 h3 h4 h5 h6
  simp [DotDims.rhsIdx]; rfl

theorem contr_rank (h : IsPlain d) : d.contr.rank = 1 := by
  rw [d.rank_contr, h.lc]; rfl

theorem contr_size (h : IsPlain d) : d.contr.size ⟨0, by rw [contr_rank h]; exact Nat.one_pos⟩ = K := by
  obtain ⟨lc, rc, ln, rn, lb, rb, wf⟩ := d
  obtain ⟨h1, h2, h3, h4, h5, h6⟩ := h
  simp only at h1 h2 h3 h4 h5 h6
  subst h1 h2 h3 h4 h5 h6
  rfl

/-- THE SUM: over the one contracted axis, entry by entry. -/
theorem sum_eq (h : IsPlain d) (lhs : (⟨2, ![M, K]⟩ : Shape).Idx → EReal) (rhs : (⟨2, ![K, N]⟩ : Shape).Idx → EReal)
    (p : Fin M) (q : Fin N) :
    ∑ k : d.contr.Idx, lhs (d.lhsIdx (ix2 p q) k) * rhs (d.rhsIdx (ix2 p q) k) = ∑ i : Fin K, lhs (ix2 p i) * rhs (ix2 i q) := by
  rw [← Equiv.sum_comp (contrEquiv1 d K (contr_rank h) (contr_size h)).symm]
  refine Finset.sum_congr rfl fun i _ => ?_
  have hk := contrEquiv1_symm_val d K (contr_rank h) (contr_size h) i
  have el : d.lhsIdx (ix2 p q) ((contrEquiv1 d K (contr_rank h) (contr_size h)).symm i) = ix2 p i := by
    funext a; refine Fin.ext ?_
    match a with
    | ⟨0, _⟩ => exact lhs_row h _ _
    | ⟨1, _⟩ => exact (d.lhsIdx_val_of_single h.lc _ _).trans hk
  have er : d.rhsIdx (ix2 p q) ((contrEquiv1 d K (contr_rank h) (contr_size h)).symm i) = ix2 i q := by
    funext a; refine Fin.ext ?_
    match a with
    | ⟨0, _⟩ => exact (d.rhsIdx_val_of_single h.rc _ _).trans hk
    | ⟨1, _⟩ => exact rhs_col h _ _
  rw [el, er]

/-- A kernel's matrix product into a zero accumulator, at the exact instance, read at an entry. -/
theorem matmul_zero_apply (h : IsPlain d) {φ₁ φ₂ : FTy} (prec : Option ContractPrecision)
    (lhs : FVec Ideal ⟨2, ![M, K]⟩ φ₁) (rhs : FVec Ideal ⟨2, ![K, N]⟩ φ₂) (p : Fin M) (q : Fin N) :
    matmul d prec lhs rhs (constant ⟨2, ![M, N]⟩ .f32 0x00000000#32) (ix2 p q) = ∑ i : Fin K, lhs (ix2 p i) * rhs (ix2 i q) :=
  (Ideal.matmul_constant_zero_apply d prec lhs rhs (ix2 p q)).trans (sum_eq h lhs rhs p q)

/-- The host's `dot_general`, at the exact instance, read at an entry: the same sum. -/
theorem dotGeneral_apply (h : IsPlain d) {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral d prec sched lhs rhs (ix2 p q) = ∑ i : Fin K, lhs (ix2 p i) * rhs (ix2 i q) :=
  (Ideal.dotGeneral_apply d prec sched lhs rhs (ix2 p q)).trans (sum_eq h lhs rhs p q)

end PlainDot

end
-- ==== Proof.Payload.lean ====
/-
  What one grid point's body computes, entry by entry, on the extended reals.

  The body takes a block of 5000 rows of the first operand `x0` and of the second operand `x1` and the two weight
  blocks `w0`, `w1` (already transposed: 128 rows, one per input feature), and stores

      x0 · w0 + x1 · w1        (entry (p, q):  ∑ₖ x0(p, k) · w0(k, q) + ∑ₖ x1(p, k) · w1(k, q)),

  rectified in the first kernel and as it is in the second.  The roundings to the narrower float format before each
  product are the identity on exact values, the casts between equal shapes are the identity, and a product into a
  zero accumulator is the plain sum over the contracted axis.
-/
import proofs.«161710_j5634997092536_1_alg».proof.Proof.Gen.KernelIdeal.Skeleton
import proofs.«161710_j5634997092536_1_alg».proof.Proof.LibPlainDot
import Idealize.ShloMosaic.Lib.Pipeline.Value
import Idealize.ShloMosaic.Lib.ValueIdx
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-- The first kernel's product contracts the block's columns with the weight block's rows. -/
theorem plain0 : PlainDot.IsPlain (M := 5000) (K := 128) (N := 128) dot_S5000x128_S128x128_S5000x128_1_0_0_1_n_n :=
  ⟨rfl, rfl, rfl, rfl, rfl, rfl⟩

/-- So does the second kernel's. -/
theorem plain1 : PlainDot.IsPlain (M := 5000) (K := 128) (N := 64) dot_S5000x128_S128x64_S5000x64_1_0_0_1_n_n :=
  ⟨rfl, rfl, rfl, rfl, rfl, rfl⟩

/-- The first kernel's stored value at entry (p, q). -/
theorem pay0_apply (x0 : Vec Ideal S5000x128 .f32) (w0 : Vec Ideal S128x128 .f32) (x1 : Vec Ideal S5000x128 .f32)
    (w1 : Vec Ideal S128x128 .f32) (p : Fin 5000) (q : Fin 128) :
    k0_pay1 (F := Ideal) x0 w0 x1 w1 (ix2 p q)
      = max (∑ k : Fin 128, x0 (ix2 p k) * w0 (ix2 k q) + ∑ k : Fin 128, x1 (ix2 p k) * w1 (ix2 k q)) 0 := by
  unfold k0_pay1
  rw [shapeCast_self, shapeCast_self, shapeCast_self]
  rw [maximumf_apply, addf_apply, broadcast_apply]
  rw [PlainDot.matmul_zero_apply plain0, PlainDot.matmul_zero_apply plain0]
  simp only [truncf_apply]
  rw [show (Scalar.ofBits .f32 0x00000000#32 : Ideal .f32) = 0 from Ideal.ofBits_zero_f32]

/-- The second kernel's stored value at entry (p, q). -/
theorem pay1_apply (x0 : Vec Ideal S5000x128 .f32) (w0 : Vec Ideal S128x64 .f32) (x1 : Vec Ideal S5000x128 .f32)
    (w1 : Vec Ideal S128x64 .f32) (p : Fin 5000) (q : Fin 64) :
    k1_pay1 (F := Ideal) x0 w0 x1 w1 (ix2 p q)
      = ∑ k : Fin 128, x0 (ix2 p k) * w0 (ix2 k q) + ∑ k : Fin 128, x1 (ix2 p k) * w1 (ix2 k q) := by
  unfold k1_pay1
  rw [shapeCast_self, shapeCast_self, shapeCast_self, shapeCast_self]
  rw [addf_apply]
  rw [PlainDot.matmul_zero_apply plain1, PlainDot.matmul_zero_apply plain1]
  simp only [truncf_apply]

end Cert.KernelIdeal.Payload

end
-- ==== Proof.Layer.lean ====
/-
  One layer of the graph network, as plain mathematics on the extended reals.

  A node's hidden vector is a linear map of TWO things laid side by side: its own 128 features and the mean of its
  in-neighbours' 128 features.  The weight matrix therefore has rows of 256 entries; the first 128 columns of row
  `j` multiply the node's own features and the last 128 multiply the neighbourhood mean.  Entry (i, j) of the layer is

      ∑ₖ x(i, k) · W(j, k)  +  ∑ₖ y(i, k) · W(j, 128 + k),        k < 128,

  followed by a rectifier in the hidden layer and by nothing in the output layer.  One program forms the 256-wide
  row [x(i, ·), y(i, ·)] and contracts it with W(j, ·) in one sum of 256 terms; the other keeps the two halves apart
  and adds two sums of 128 terms.  The two agree because a finite sum over an index set cut in two is the sum of the
  sums over the parts — associativity and commutativity of addition only, which hold on the extended reals with no
  finiteness assumption.
-/
import Idealize.ShloMosaic.Lib.ValueIdx
import Idealize.ShloMosaic.PureOps.Ideal

noncomputable section

open scoped BigOperators

namespace Cert.Layer

open Idealize.ShloMosaic Idealize.ShloMosaic.ValueIdx

/-- Column `k` of the half of a weight row that multiplies a node's own features. -/
abbrev own (k : Fin 128) : Fin 256 := ⟨k.val, by omega⟩
/-- Column `k` of the half of a weight row that multiplies the neighbourhood mean. -/
abbrev nbr (k : Fin 128) : Fin 256 := ⟨128 + k.val, by omega⟩

/-- Entry (i, j) of a layer before any rectifier: own features `x` against the first half of weight row `j`,
    neighbourhood means `y` against the second half. -/
def pre {D : Nat} (x y : (⟨2, ![100000, 128]⟩ : Shape).Idx → EReal) (W : (⟨2, ![D, 256]⟩ : Shape).Idx → EReal)
    (i : Fin 100000) (j : Fin D) : EReal :=
  ∑ k : Fin 128, x (ix2 i k) * W (ix2 j (own k)) + ∑ k : Fin 128, y (ix2 i k) * W (ix2 j (nbr k))

/-- The hidden layer: 128 units, rectified. -/
def hidden (x y : (⟨2, ![100000, 128]⟩ : Shape).Idx → EReal) (W : (⟨2, ![128, 256]⟩ : Shape).Idx → EReal) :
    (⟨2, ![100000, 128]⟩ : Shape).Idx → EReal :=
  fun i => max (pre x y W (i 0) (i 1)) 0

/-- The output layer: 64 units, no rectifier. -/
def output (x y : (⟨2, ![100000, 128]⟩ : Shape).Idx → EReal) (W : (⟨2, ![64, 256]⟩ : Shape).Idx → EReal) :
    (⟨2, ![100000, 64]⟩ : Shape).Idx → EReal :=
  fun i => pre x y W (i 0) (i 1)

theorem hidden_apply (x y : (⟨2, ![100000, 128]⟩ : Shape).Idx → EReal) (W : (⟨2, ![128, 256]⟩ : Shape).Idx → EReal)
    (p : Fin 100000) (q : Fin 128) : hidden x y W (ix2 p q) = max (pre x y W p q) 0 := rfl

theorem output_apply (x y : (⟨2, ![100000, 128]⟩ : Shape).Idx → EReal) (W : (⟨2, ![64, 256]⟩ : Shape).Idx → EReal)
    (p : Fin 100000) (q : Fin 64) : output x y W (ix2 p q) = pre x y W p q := rfl

/-- A sum over the 256 columns of a concatenated row is the sum over its first 128 plus the sum over its last 128. -/
theorem sum_split (f : Fin 256 → EReal) :
    ∑ k : Fin 256, f k = ∑ k : Fin 128, f (own k) + ∑ k : Fin 128, f (nbr k) := by
  have h := Fin.sum_univ_add (a := 128) (b := 128) (f : Fin (128 + 128) → EReal)
  refine h.trans ?_
  rfl

end Cert.Layer

end
-- ==== Proof.Region0.lean ====
/-
  The hidden layer's array after the first kernel has run over its twenty row blocks.

  Grid point `t` reads rows `5000 t … 5000 t + 4999` of the node features and of the neighbourhood means, reads the two
  transposed weight halves whole, and writes rows `5000 t … 5000 t + 4999` of the result.  Entry (p, q) of what it writes
  is the rectified layer entry (5000 t + p, q); the twenty row blocks tile the 100000 rows, so the array ends holding
  the hidden layer at every index.  The weight halves enter through what the region finds in their two arrays:
  entry (k, q) of the first is W(q, k) and of the second W(q, 128 + k).
-/
import proofs.«161710_j5634997092536_1_alg».proof.Proof.Gen.KernelIdeal.Frame
import proofs.«161710_j5634997092536_1_alg».proof.Proof.Payload
import proofs.«161710_j5634997092536_1_alg».proof.Proof.Layer
import Idealize.ShloMosaic.Lib.Pipeline.Value
import Idealize.ShloMosaic.Lib.ValueIdx

set_option maxRecDepth 16384

noncomputable section

open scoped BigOperators

namespace Cert.KernelIdeal.Region0

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the three row-blocked windows sit at block row `t`, the weight windows at the origin. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Row `p` of point `t`'s block of the node features is row `5000 t + p` of the array. -/
theorem xblk_apply (c : Dev nD) (t : Fin cfg0.N) (p : Fin 5000) (k : Fin 128) (r : Fin 100000) (hr : r.val = 5000 * t.val + p.val) :
    (iblk0 V c 0 t : Vec Ideal S5000x128 .f32) (ix2 p k) = (V c main_arg0 : S100000x128.Idx → EReal) (ix2 r k) := by
  obtain ⟨e0, e1, -⟩ := idx_facts t
  unfold iblk0
  rw [View.read_apply]
  show (V c main_arg0 : S100000x128.Idx → EReal) _ = _
  refine congrArg (V c main_arg0 : S100000x128.Idx → EReal) ?_
  funext a
  apply Fin.ext
  match a with
  | ⟨0, _⟩ => show win0_0.index t (0 : Fin 2) * 5000 + 1 * p.val = r.val; rw [e0, hr]; omega
  | ⟨1, _⟩ => show win0_0.index t (1 : Fin 2) * 128 + 1 * k.val = k.val; rw [e1]; omega

/-- The same for the neighbourhood means. -/
theorem yblk_apply (c : Dev nD) (t : Fin cfg0.N) (p : Fin 5000) (k : Fin 128) (r : Fin 100000) (hr : r.val = 5000 * t.val + p.val) :
    (iblk0 V c 1 t : Vec Ideal S5000x128 .f32) (ix2 p k) = (V c main_v18 : S100000x128.Idx → EReal) (ix2 r k) := by
  obtain ⟨-, -, e0, e1, -⟩ := idx_facts t
  unfold iblk0
  rw [View.read_apply]
  show (V c main_v18 : S100000x128.Idx → EReal) _ = _
  refine congrArg (V c main_v18 : S100000x128.Idx → EReal) ?_
  funext a
  apply Fin.ext
  match a with
  | ⟨0, _⟩ => show win0_1.index t (0 : Fin 2) * 5000 + 1 * p.val = r.val; rw [e0, hr]; omega
  | ⟨1, _⟩ => show win0_1.index t (1 : Fin 2) * 128 + 1 * k.val = k.val; rw [e1]; omega

/-- The first weight window's one block is its whole array. -/
theorem w0blk_apply (c : Dev nD) (t : Fin cfg0.N) (k q : Fin 128) :
    (iblk0 V c 2 t : Vec Ideal S128x128 .f32) (ix2 k q) = (V c main_v20 : S128x128.Idx → EReal) (ix2 k q) := by
  obtain ⟨-, -, -, -, e0, e1, -⟩ := idx_facts t
  unfold iblk0
  rw [View.read_apply]
  show (V c main_v20 : S128x128.Idx → EReal) _ = _
  refine congrArg (V c main_v20 : S128x128.Idx → EReal) ?_
  funext a
  apply Fin.ext
  match a with
  | ⟨0, _⟩ => show win0_2.index t (0 : Fin 2) * 128 + 1 * k.val = k.val; rw [e0]; omega
  | ⟨1, _⟩ => show win0_2.index t (1 : Fin 2) * 128 + 1 * q.val = q.val; rw [e1]; omega

/-- So is the second weight window's. -/
theorem w1blk_apply (c : Dev nD) (t : Fin cfg0.N) (k q : Fin 128) :
    (iblk0 V c 3 t : Vec Ideal S128x128 .f32) (ix2 k q) = (V c main_v22 : S128x128.Idx → EReal) (ix2 k q) := by
  obtain ⟨-, -, -, -, -, -, e0, e1, -⟩ := idx_facts t
  unfold iblk0
  rw [View.read_apply]
  show (V c main_v22 : S128x128.Idx → EReal) _ = _
  refine congrArg (V c main_v22 : S128x128.Idx → EReal) ?_
  funext a
  apply Fin.ext
  match a with
  | ⟨0, _⟩ => show win0_3.index t (0 : Fin 2) * 128 + 1 * k.val = k.val; rw [e0]; omega
  | ⟨1, _⟩ => show win0_3.index t (1 : Fin 2) * 128 + 1 * q.val = q.val; rw [e1]; omega

/-- One point's stored entry is the hidden layer's entry of the row it stands for, whatever blocks the point was handed,
    as long as they are the rows and the weight halves the layer speaks of. -/
theorem point_value (x0 x1 : Vec Ideal S5000x128 .f32) (w0 w1 : Vec Ideal S128x128 .f32)
    (X Y : S100000x128.Idx → EReal) (W : S128x256.Idx → EReal) (p : Fin 5000) (q : Fin 128) (r : Fin 100000)
    (hx0 : ∀ k : Fin 128, x0 (ix2 p k) = X (ix2 r k)) (hx1 : ∀ k : Fin 128, x1 (ix2 p k) = Y (ix2 r k))
    (hw0 : ∀ k q : Fin 128, w0 (ix2 k q) = W (ix2 q (Cert.Layer.own k)))
    (hw1 : ∀ k q : Fin 128, w1 (ix2 k q) = W (ix2 q (Cert.Layer.nbr k))) :
    k0_pay1 (F := Ideal) x0 w0 x1 w1 (ix2 p q) = Cert.Layer.hidden X Y W (ix2 r q) := by
  rw [Cert.KernelIdeal.Payload.pay0_apply, Cert.Layer.hidden_apply]
  unfold Cert.Layer.pre
  simp only [hx0, hx1, hw0, hw1]

/-- WHAT POINT `t` WRITES BACK is block `t` of the hidden layer of the arrays the region finds. -/
theorem flushed_eq (c : Dev nD) (W : S128x256.Idx → EReal)
    (hw0 : ∀ k q : Fin 128, (V c main_v20 : S128x128.Idx → EReal) (ix2 k q) = W (ix2 q (Cert.Layer.own k)))
    (hw1 : ∀ k q : Fin 128, (V c main_v22 : S128x128.Idx → EReal) (ix2 k q) = W (ix2 q (Cert.Layer.nbr k)))
    (t : Fin cfg0.N) :
    (dat0 V c).flushed 4 t = ((cfg0.win 4).blk t).view.read (Elt Ideal)
      (Cert.Layer.hidden (V c main_arg0 : S100000x128.Idx → EReal) (V c main_v18 : S100000x128.Idx → EReal) W) := by
  show (cfg0.win 4).cut (grid0.coords t) ((dat0 V c).after 4 t) = _
  rw [after0_4]
  unfold out0_4
  rw [View.canon_unit_zero hz]
  simp only [View.ld_unit_zero (S := S5000x128) hz, View.ld_unit_zero (S := S128x128) hz]
  obtain ⟨-, -, -, -, -, -, -, -, e0, e1⟩ := idx_facts t
  have htN : t.val < 20 := lt_of_lt_of_eq t.isLt N_0
  funext j
  have hj0 : (j 0).val < 5000 := (j 0).isLt
  have hj1 : (j 1).val < 128 := (j 1).isLt
  have hx : (win0 4).xinj (grid0.coords t) j = ix2 (⟨(j 0).val, hj0⟩ : Fin 5000) (⟨(j 1).val, hj1⟩ : Fin 128) := by
    funext a
    apply Fin.ext
    match a with
    | ⟨0, _⟩ => rfl
    | ⟨1, _⟩ => rfl
  have he : ((cfg0.win 4).blk t).view.emb j = ix2 (⟨5000 * t.val + (j 0).val, by omega⟩ : Fin 100000) (⟨(j 1).val, hj1⟩ : Fin 128) := by
    funext a
    apply Fin.ext
    match a with
    | ⟨0, _⟩ => show win0_4.index t (0 : Fin 2) * 5000 + 1 * (j 0).val = 5000 * t.val + (j 0).val; rw [e0]; omega
    | ⟨1, _⟩ => show win0_4.index t (1 : Fin 2) * 128 + 1 * (j 1).val = (j 1).val; rw [e1]; omega
  refine Eq.trans (congrArg (k0_pay1 (F := Ideal) (iblk0 V c 0 t) (iblk0 V c 2 t) (iblk0 V c 1 t) (iblk0 V c 3 t)) hx) ?_
  refine Eq.trans ?_ (congrArg (Cert.Layer.hidden (V c main_arg0 : S100000x128.Idx → EReal) (V c main_v18 : S100000x128.Idx → EReal) W) he).symm
  exact point_value (iblk0 V c 0 t) (iblk0 V c 1 t) (iblk0 V c 2 t) (iblk0 V c 3 t)
    (V c main_arg0 : S100000x128.Idx → EReal) (V c main_v18 : S100000x128.Idx → EReal) W ⟨(j 0).val, hj0⟩ ⟨(j 1).val, hj1⟩
    ⟨5000 * t.val + (j 0).val, by omega⟩
    (fun k => xblk_apply V c t _ k _ rfl) (fun k => yblk_apply V c t _ k _ rfl)
    (fun k q => (w0blk_apply V c t k q).trans (hw0 k q)) (fun k q => (w1blk_apply V c t k q).trans (hw1 k q))

/-- Every row of the array lies in the block of the point that its row number divided by 5000 names. -/
theorem cover (i : S100000x128.Idx) :
    ∃ t : Fin cfg0.N, (cfg0.win 4).flush t = true ∧ i ∈ ((cfg0.win 4).blk t).view.set := by
  have h0 : (i 0).val < 100000 := (i 0).isLt
  have h1 : (i 1).val < 128 := (i 1).isLt
  have hN : cfg0.N = 20 := N_0
  let t : Fin cfg0.N := ⟨(i 0).val / 5000, by rw [hN]; omega⟩
  obtain ⟨-, -, -, -, -, -, -, -, e0, e1⟩ := idx_facts t
  refine ⟨t, flush0_4 t, ?_⟩
  show i ∈ ((View.whole main_v23).slice (win0_4.rect t)).set
  rw [View.set_slice_whole, Rect.mem_set_unit]
  intro a
  match a with
  | ⟨0, _⟩ =>
    show win0_4.index t (0 : Fin 2) * 5000 ≤ (i 0).val ∧ (i 0).val < win0_4.index t (0 : Fin 2) * 5000 + 5000
    rw [e0]; show (i 0).val / 5000 * 5000 ≤ (i 0).val ∧ (i 0).val < (i 0).val / 5000 * 5000 + 5000; omega
  | ⟨1, _⟩ =>
    show win0_4.index t (1 : Fin 2) * 128 ≤ (i 1).val ∧ (i 1).val < win0_4.index t (1 : Fin 2) * 128 + 128
    rw [e1]; omega

/-- THE ARRAY after the region: the hidden layer of the node features and neighbourhood means the region found. -/
theorem final (c : Dev nD) (W : S128x256.Idx → EReal)
    (hw0 : ∀ k q : Fin 128, (V c main_v20 : S128x128.Idx → EReal) (ix2 k q) = W (ix2 q (Cert.Layer.own k)))
    (hw1 : ∀ k q : Fin 128, (V c main_v22 : S128x128.Idx → EReal) (ix2 k q) = W (ix2 q (Cert.Layer.nbr k))) :
    (dat0 V c).arrAt 4 cfg0.N
      = Cert.Layer.hidden (V c main_arg0 : S100000x128.Idx → EReal) (V c main_v18 : S100000x128.Idx → EReal) W :=
  (dat0 V c).arrAt_eq_of_cover 4 _ (fun t _ => flushed_eq V c W hw0 hw1 t) cover

end Cert.KernelIdeal.Region0

end
-- ==== Proof.Region1.lean ====
/-
  The result array after the second kernel has run over its twenty row blocks.

  Grid point `t` reads rows `5000 t … 5000 t + 4999` of the hidden layer and of its neighbourhood means, reads the two
  transposed halves of the second weight matrix whole, and writes rows `5000 t … 5000 t + 4999` of the result, 64 wide.
  Entry (p, q) of what it writes is the output layer's entry (5000 t + p, q), with no rectifier; the twenty row blocks
  tile the 100000 rows, so the array ends holding the output layer at every index.
-/
import proofs.«161710_j5634997092536_1_alg».proof.Proof.Gen.KernelIdeal.Frame
import proofs.«161710_j5634997092536_1_alg».proof.Proof.Payload
import proofs.«161710_j5634997092536_1_alg».proof.Proof.Layer
import Idealize.ShloMosaic.Lib.Pipeline.Value
import Idealize.ShloMosaic.Lib.ValueIdx

set_option maxRecDepth 16384

noncomputable section

open scoped BigOperators

namespace Cert.KernelIdeal.Region1

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the three row-blocked windows sit at block row `t`, the weight windows at the origin. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Row `p` of point `t`'s block of the hidden layer is row `5000 t + p` of the array. -/
theorem xblk_apply (c : Dev nD) (t : Fin cfg1.N) (p : Fin 5000) (k : Fin 128) (r : Fin 100000) (hr : r.val = 5000 * t.val + p.val) :
    (iblk1 V c 0 t : Vec Ideal S5000x128 .f32) (ix2 p k) = (V c main_v23 : S100000x128.Idx → EReal) (ix2 r k) := by
  obtain ⟨e0, e1, -⟩ := idx_facts t
  unfold iblk1
  rw [View.read_apply]
  show (V c main_v23 : S100000x128.Idx → EReal) _ = _
  refine congrArg (V c main_v23 : S100000x128.Idx → EReal) ?_
  funext a
  apply Fin.ext
  match a with
  | ⟨0, _⟩ => show win1_0.index t (0 : Fin 2) * 5000 + 1 * p.val = r.val; rw [e0, hr]; omega
  | ⟨1, _⟩ => show win1_0.index t (1 : Fin 2) * 128 + 1 * k.val = k.val; rw [e1]; omega

/-- The same for the neighbourhood means. -/
theorem yblk_apply (c : Dev nD) (t : Fin cfg1.N) (p : Fin 5000) (k : Fin 128) (r : Fin 100000) (hr : r.val = 5000 * t.val + p.val) :
    (iblk1 V c 1 t : Vec Ideal S5000x128 .f32) (ix2 p k) = (V c main_v42 : S100000x128.Idx → EReal) (ix2 r k) := by
  obtain ⟨-, -, e0, e1, -⟩ := idx_facts t
  unfold iblk1
  rw [View.read_apply]
  show (V c main_v42 : S100000x128.Idx → EReal) _ = _
  refine congrArg (V c main_v42 : S100000x128.Idx → EReal) ?_
  funext a
  apply Fin.ext
  match a with
  | ⟨0, _⟩ => show win1_1.index t (0 : Fin 2) * 5000 + 1 * p.val = r.val; rw [e0, hr]; omega
  | ⟨1, _⟩ => show win1_1.index t (1 : Fin 2) * 128 + 1 * k.val = k.val; rw [e1]; omega

/-- The first weight window's one block is its whole array. -/
theorem w0blk_apply (c : Dev nD) (t : Fin cfg1.N) (k : Fin 128) (q : Fin 64) :
    (iblk1 V c 2 t : Vec Ideal S128x64 .f32) (ix2 k q) = (V c main_v44 : S128x64.Idx → EReal) (ix2 k q) := by
  obtain ⟨-, -, -, -, e0, e1, -⟩ := idx_facts t
  unfold iblk1
  rw [View.read_apply]
  show (V c main_v44 : S128x64.Idx → EReal) _ = _
  refine congrArg (V c main_v44 : S128x64.Idx → EReal) ?_
  funext a
  apply Fin.ext
  match a with
  | ⟨0, _⟩ => show win1_2.index t (0 : Fin 2) * 128 + 1 * k.val = k.val; rw [e0]; omega
  | ⟨1, _⟩ => show win1_2.index t (1 : Fin 2) * 64 + 1 * q.val = q.val; rw [e1]; omega

/-- So is the second weight window's. -/
theorem w1blk_apply (c : Dev nD) (t : Fin cfg1.N) (k : Fin 128) (q : Fin 64) :
    (iblk1 V c 3 t : Vec Ideal S128x64 .f32) (ix2 k q) = (V c main_v46 : S128x64.Idx → EReal) (ix2 k q) := by
  obtain ⟨-, -, -, -, -, -, e0, e1, -⟩ := idx_facts t
  unfold iblk1
  rw [View.read_apply]
  show (V c main_v46 : S128x64.Idx → EReal) _ = _
  refine congrArg (V c main_v46 : S128x64.Idx → EReal) ?_
  funext a
  apply Fin.ext
  match a with
  | ⟨0, _⟩ => show win1_3.index t (0 : Fin 2) * 128 + 1 * k.val = k.val; rw [e0]; omega
  | ⟨1, _⟩ => show win1_3.index t (1 : Fin 2) * 64 + 1 * q.val = q.val; rw [e1]; omega

/-- One point's stored entry is the output layer's entry of the row it stands for, whatever blocks the point was handed,
    as long as they are the rows and the weight halves the layer speaks of. -/
theorem point_value (x0 x1 : Vec Ideal S5000x128 .f32) (w0 w1 : Vec Ideal S128x64 .f32)
    (X Y : S100000x128.Idx → EReal) (W : S64x256.Idx → EReal) (p : Fin 5000) (q : Fin 64) (r : Fin 100000)
    (hx0 : ∀ k : Fin 128, x0 (ix2 p k) = X (ix2 r k)) (hx1 : ∀ k : Fin 128, x1 (ix2 p k) = Y (ix2 r k))
    (hw0 : ∀ (k : Fin 128) (q : Fin 64), w0 (ix2 k q) = W (ix2 q (Cert.Layer.own k)))
    (hw1 : ∀ (k : Fin 128) (q : Fin 64), w1 (ix2 k q) = W (ix2 q (Cert.Layer.nbr k))) :
    k1_pay1 (F := Ideal) x0 w0 x1 w1 (ix2 p q) = Cert.Layer.output X Y W (ix2 r q) := by
  rw [Cert.KernelIdeal.Payload.pay1_apply, Cert.Layer.output_apply]
  unfold Cert.Layer.pre
  simp only [hx0, hx1, hw0, hw1]

/-- WHAT POINT `t` WRITES BACK is block `t` of the output layer of the arrays the region finds. -/
theorem flushed_eq (c : Dev nD) (W : S64x256.Idx → EReal)
    (hw0 : ∀ (k : Fin 128) (q : Fin 64), (V c main_v44 : S128x64.Idx → EReal) (ix2 k q) = W (ix2 q (Cert.Layer.own k)))
    (hw1 : ∀ (k : Fin 128) (q : Fin 64), (V c main_v46 : S128x64.Idx → EReal) (ix2 k q) = W (ix2 q (Cert.Layer.nbr k)))
    (t : Fin cfg1.N) :
    (dat1 V c).flushed 4 t = ((cfg1.win 4).blk t).view.read (Elt Ideal)
      (Cert.Layer.output (V c main_v23 : S100000x128.Idx → EReal) (V c main_v42 : S100000x128.Idx → EReal) W) := by
  show (cfg1.win 4).cut (grid1.coords t) ((dat1 V c).after 4 t) = _
  rw [after1_4]
  unfold out1_4
  rw [View.canon_unit_zero hz]
  simp only [View.ld_unit_zero (S := S5000x128) hz, View.ld_unit_zero (S := S128x64) hz]
  obtain ⟨-, -, -, -, -, -, -, -, e0, e1⟩ := idx_facts t
  have htN : t.val < 20 := lt_of_lt_of_eq t.isLt N_1
  funext j
  have hj0 : (j 0).val < 5000 := (j 0).isLt
  have hj1 : (j 1).val < 64 := (j 1).isLt
  have hx : (win1 4).xinj (grid1.coords t) j = ix2 (⟨(j 0).val, hj0⟩ : Fin 5000) (⟨(j 1).val, hj1⟩ : Fin 64) := by
    funext a
    apply Fin.ext
    match a with
    | ⟨0, _⟩ => rfl
    | ⟨1, _⟩ => rfl
  have he : ((cfg1.win 4).blk t).view.emb j = ix2 (⟨5000 * t.val + (j 0).val, by omega⟩ : Fin 100000) (⟨(j 1).val, hj1⟩ : Fin 64) := by
    funext a
    apply Fin.ext
    match a with
    | ⟨0, _⟩ => show win1_4.index t (0 : Fin 2) * 5000 + 1 * (j 0).val = 5000 * t.val + (j 0).val; rw [e0]; omega
    | ⟨1, _⟩ => show win1_4.index t (1 : Fin 2) * 64 + 1 * (j 1).val = (j 1).val; rw [e1]; omega
  refine Eq.trans (congrArg (k1_pay1 (F := Ideal) (iblk1 V c 0 t) (iblk1 V c 2 t) (iblk1 V c 1 t) (iblk1 V c 3 t)) hx) ?_
  refine Eq.trans ?_ (congrArg (Cert.Layer.output (V c main_v23 : S100000x128.Idx → EReal) (V c main_v42 : S100000x128.Idx → EReal) W) he).symm
  exact point_value (iblk1 V c 0 t) (iblk1 V c 1 t) (iblk1 V c 2 t) (iblk1 V c 3 t)
    (V c main_v23 : S100000x128.Idx → EReal) (V c main_v42 : S100000x128.Idx → EReal) W ⟨(j 0).val, hj0⟩ ⟨(j 1).val, hj1⟩
    ⟨5000 * t.val + (j 0).val, by omega⟩
    (fun k => xblk_apply V c t _ k _ rfl) (fun k => yblk_apply V c t _ k _ rfl)
    (fun k q => (w0blk_apply V c t k q).trans (hw0 k q)) (fun k q => (w1blk_apply V c t k q).trans (hw1 k q))

/-- Every row of the array lies in the block of the point that its row number divided by 5000 names. -/
theorem cover (i : S100000x64.Idx) :
    ∃ t : Fin cfg1.N, (cfg1.win 4).flush t = true ∧ i ∈ ((cfg1.win 4).blk t).view.set := by
  have h0 : (i 0).val < 100000 := (i 0).isLt
  have h1 : (i 1).val < 64 := (i 1).isLt
  have hN : cfg1.N = 20 := N_1
  let t : Fin cfg1.N := ⟨(i 0).val / 5000, by rw [hN]; omega⟩
  obtain ⟨-, -, -, -, -, -, -, -, e0, e1⟩ := idx_facts t
  refine ⟨t, flush1_4 t, ?_⟩
  show i ∈ ((View.whole main_v47).slice (win1_4.rect t)).set
  rw [View.set_slice_whole, Rect.mem_set_unit]
  intro a
  match a with
  | ⟨0, _⟩ =>
    show win1_4.index t (0 : Fin 2) * 5000 ≤ (i 0).val ∧ (i 0).val < win1_4.index t (0 : Fin 2) * 5000 + 5000
    rw [e0]; show (i 0).val / 5000 * 5000 ≤ (i 0).val ∧ (i 0).val < (i 0).val / 5000 * 5000 + 5000; omega
  | ⟨1, _⟩ =>
    show win1_4.index t (1 : Fin 2) * 64 ≤ (i 1).val ∧ (i 1).val < win1_4.index t (1 : Fin 2) * 64 + 64
    rw [e1]; omega

/-- THE ARRAY after the region: the output layer of the hidden layer and neighbourhood means the region found. -/
theorem final (c : Dev nD) (W : S64x256.Idx → EReal)
    (hw0 : ∀ (k : Fin 128) (q : Fin 64), (V c main_v44 : S128x64.Idx → EReal) (ix2 k q) = W (ix2 q (Cert.Layer.own k)))
    (hw1 : ∀ (k : Fin 128) (q : Fin 64), (V c main_v46 : S128x64.Idx → EReal) (ix2 k q) = W (ix2 q (Cert.Layer.nbr k))) :
    (dat1 V c).arrAt 4 cfg1.N
      = Cert.Layer.output (V c main_v23 : S100000x128.Idx → EReal) (V c main_v42 : S100000x128.Idx → EReal) W :=
  (dat1 V c).arrAt_eq_of_cover 4 _ (fun t _ => flushed_eq V c W hw0 hw1 t) cover

end Cert.KernelIdeal.Region1

end
-- ==== Proof.Mean.lean ====
/-
  The mean of a node's in-neighbours' rows.

  Edge `e` runs from node `src e` to node `dst e`.  A negative source index counts from the end (100000 is added
  to it).  Row `v` of the result is the sum of the rows `x (src e)` over the edges `e` with `dst e = v`, divided by
  the number of such edges, the divisor being at least one so that a node with no in-edge gets the zero row.
  Both programs compute this with the same host operations, written here once, over the operations' own
  records; nothing in the certificate looks inside it: the two programs apply it to equal arrays.
-/
import proofs.«161710_j5634997092536_1_alg».proof.ReferenceIdeal

noncomputable section

namespace Cert.Mean

open Cert.ReferenceIdeal Idealize.ShloMosaic

variable {F : FTy → Type} [FloatOps F] [Cert.ReferenceIdeal.Facts]

open Cert.ReferenceIdeal.Facts₀ in
/-- Row `v`: the mean of the rows `x (src e)` over the edges `e` into `v` (the zero row if there is none). -/
def meanAgg (x : (⟨S100000x128, .f32⟩ : BufTy).Contents (Elt F)) (src dst : (⟨S1600000, .i32⟩ : BufTy).Contents (Elt F)) :
    (⟨S100000x128, .f32⟩ : BufTy).Contents (Elt F) :=
  Host.divf (Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 dst) (Host.gather gather_S100000x128_S1600000x1_S1600000x128_1_0_n_n_0_1_1128 x (broadcastInDim S1600000x1 ![0] bcast_S1600000_S1600000x1_0 (select (cmpi .slt src (broadcastInDim S1600000 ![] bcast_S_S1600000 (constantI S_ 32 0#32))) (addi src (broadcastInDim S1600000 ![] bcast_S_S1600000 (constantI S_ 32 100000#32))) src)))) (broadcastInDim S100000x128 ![0, 1] bcast_S100000x1_S100000x128_0_1 (broadcastInDim S100000x1 ![0] bcast_S100000_S100000x1_0 (maximumf (Host.scatterAdd scatter_S100000_S1600000x1_S1600000_n_0_0_1 (broadcastInDim S100000 ![] bcast_S_S100000 (constant S_ .f32 0x00000000#32)) (broadcastInDim S1600000x1 ![0] bcast_S1600000_S1600000x1_0 dst) (broadcastInDim S1600000 ![] bcast_S_S1600000 (constant S_ .f32 0x3F800000#32))) (broadcastInDim S100000 ![] bcast_S_S100000 (constant S_ .f32 0x3F800000#32)))))

end Cert.Mean

end
-- ==== Proof.HostSide.lean ====
/-
  What the two kernels are handed: the host operations before each of them, read off the launch memory.

  Before the first kernel the host forms the neighbourhood means of the node features and cuts the first weight matrix
  into its two halves, each transposed: entry (k, q) of the first half is W0(q, k), of the second W0(q, 128 + k).
  Between the kernels it does the same with the hidden layer the first kernel left and with the second weight matrix.
  The arguments themselves are never written.
-/
import proofs.«161710_j5634997092536_1_alg».proof.Proof.Gen.KernelIdeal.Frame
import proofs.«161710_j5634997092536_1_alg».proof.Proof.Mean
import proofs.«161710_j5634997092536_1_alg».proof.Proof.Layer
import Idealize.ShloMosaic.Lib.Pipeline.Value
import Idealize.ShloMosaic.Lib.ValueIdx
import Idealize.ShloMosaic.Lib.StableHlo.Run

set_option maxRecDepth 16384

noncomputable section

namespace Cert.KernelIdeal.HostSide

open Cert.KernelIdeal Cert.KernelIdeal.Gen Idealize.ShloMosaic Idealize.ShloMosaic.TcCoe Idealize.ShloMosaic.ValueIdx
open Idealize.SL.Sem Idealize.ShloMosaic.StableHlo

variable [Cert.ReferenceIdeal.Facts]
variable (m : (ℓ : Loc nD τ sig) → Buf (Elt Ideal) ℓ) (ρ : Dev nD → PrngReg)

/-! ## Before the first kernel -/

/-- The node features reach the first kernel as launched. -/
theorem in0_feat (c : Dev nD) : V1 m ρ c main_arg0 = m ((c : Thread nD τ).loc main_arg0) := by
  show StableHlo.after hostOps0 (W0 m ρ c) (Proc.devRef .tc main_arg0) = _
  after_results <;> rfl

set_option maxHeartbeats 2000000 in
/-- The first kernel's second operand is the neighbourhood mean of the node features. -/
theorem in0_mean (c : Dev nD) :
    V1 m ρ c main_v18 = Cert.Mean.meanAgg (F := Ideal) (m ((c : Thread nD τ).loc main_arg0))
      (m ((c : Thread nD τ).loc main_arg1)) (m ((c : Thread nD τ).loc main_arg2)) := by
  show StableHlo.after hostOps0 (W0 m ρ c) (Proc.devRef .tc main_v18) = _
  unfold Cert.Mean.meanAgg
  after_results_simp <;> rfl

/-- Its third: the own-feature half of the first weight matrix, transposed. -/
theorem in0_wown (c : Dev nD) (k q : Fin 128) :
    (V1 m ρ c main_v20 : S128x128.Idx → EReal) (ix2 k q)
      = (m ((c : Thread nD τ).loc main_arg3) : S128x256.Idx → EReal) (ix2 q (Cert.Layer.own k)) := by
  have e : (V1 m ρ c main_v20 : S128x128.Idx → EReal)
      = transpose S128x128 [1, 0] (extractStridedSlice S128x128 ![0, 0] (m ((c : Thread nD τ).loc main_arg3) : S128x256.Idx → EReal) Facts₀.slices_S128x256_S128x128_0_0) Facts₀.transposes_S128x128_S128x128_1_0 := by
    show StableHlo.after hostOps0 (W0 m ρ c) (Proc.devRef .tc main_v20) = _
    after_results <;> rfl
  rw [e]
  refine (transpose_apply _ _ _ (ix2 k q) (ix2 q k) fun b => ?_).trans ?_
  · match b with
    | ⟨0, _⟩ => rfl
    | ⟨1, _⟩ => rfl
  · refine extractStridedSlice_apply _ _ _ (ix2 q k) (ix2 q (Cert.Layer.own k)) fun a => ?_
    match a with
    | ⟨0, _⟩ => show q.val = 0 + q.val; omega
    | ⟨1, _⟩ => show k.val = 0 + k.val; omega

/-- Its fourth: the neighbour half, transposed. -/
theorem in0_wnbr (c : Dev nD) (k q : Fin 128) :
    (V1 m ρ c main_v22 : S128x128.Idx → EReal) (ix2 k q)
      = (m ((c : Thread nD τ).loc main_arg3) : S128x256.Idx → EReal) (ix2 q (Cert.Layer.nbr k)) := by
  have e : (V1 m ρ c main_v22 : S128x128.Idx → EReal)
      = transpose S128x128 [1, 0] (extractStridedSlice S128x128 ![0, 128] (m ((c : Thread nD τ).loc main_arg3) : S128x256.Idx → EReal) Facts₀.slices_S128x256_S128x128_0_128) Facts₀.transposes_S128x128_S128x128_1_0 := by
    show StableHlo.after hostOps0 (W0 m ρ c) (Proc.devRef .tc main_v22) = _
    after_results <;> rfl
  rw [e]
  refine (transpose_apply _ _ _ (ix2 k q) (ix2 q k) fun b => ?_).trans ?_
  · match b with
    | ⟨0, _⟩ => rfl
    | ⟨1, _⟩ => rfl
  · refine extractStridedSlice_apply _ _ _ (ix2 q k) (ix2 q (Cert.Layer.nbr k)) fun a => ?_
    match a with
    | ⟨0, _⟩ => show q.val = 0 + q.val; omega
    | ⟨1, _⟩ => show 128 + k.val = 128 + k.val; rfl

/-! ## Between the kernels -/

/-- What the first kernel left in its result array. -/
abbrev hid (c : Dev nD) : S100000x128.Idx → EReal := (dat0 (V1 m ρ) c).arrAt 4 cfg0.N

/-- The edge sources are as launched when the first kernel has finished. -/
theorem mid_src (c : Dev nD) : W2 m ρ c (Proc.devRef .tc main_arg1) = m ((c : Thread nD τ).loc main_arg1) := by
  refine (W2_of_ne m ρ c main_arg1 (by decide)).trans ?_
  show StableHlo.after hostOps0 (W0 m ρ c) (Proc.devRef .tc main_arg1) = _
  after_results <;> rfl

/-- So are the edge destinations. -/
theorem mid_dst (c : Dev nD) : W2 m ρ c (Proc.devRef .tc main_arg2) = m ((c : Thread nD τ).loc main_arg2) := by
  refine (W2_of_ne m ρ c main_arg2 (by decide)).trans ?_
  show StableHlo.after hostOps0 (W0 m ρ c) (Proc.devRef .tc main_arg2) = _
  after_results <;> rfl

/-- And the second weight matrix. -/
theorem mid_w (c : Dev nD) : W2 m ρ c (Proc.devRef .tc main_arg4) = m ((c : Thread nD τ).loc main_arg4) := by
  refine (W2_of_ne m ρ c main_arg4 (by decide)).trans ?_
  show StableHlo.after hostOps0 (W0 m ρ c) (Proc.devRef .tc main_arg4) = _
  after_results <;> rfl

/-- The hidden layer reaches the second kernel as the first one left it. -/
theorem in1_hid (c : Dev nD) : V3 m ρ c main_v23 = hid m ρ c := by
  refine Eq.trans ?_ (W2_arr m ρ c 4)
  show StableHlo.after hostOps1 (W2 m ρ c) (Proc.devRef .tc main_v23) = W2 m ρ c (Proc.devRef .tc main_v23)
  after_results <;> rfl

set_option maxHeartbeats 2000000 in
/-- The second kernel's second operand is the neighbourhood mean of the hidden layer. -/
theorem in1_mean (c : Dev nD) :
    V3 m ρ c main_v42 = Cert.Mean.meanAgg (F := Ideal) (hid m ρ c)
      (m ((c : Thread nD τ).loc main_arg1)) (m ((c : Thread nD τ).loc main_arg2)) := by
  have e : V3 m ρ c main_v42 = Cert.Mean.meanAgg (F := Ideal) (W2 m ρ c (Proc.devRef .tc main_v23))
      (W2 m ρ c (Proc.devRef .tc main_arg1)) (W2 m ρ c (Proc.devRef .tc main_arg2)) := by
    show StableHlo.after hostOps1 (W2 m ρ c) (Proc.devRef .tc main_v42) = _
    unfold Cert.Mean.meanAgg
    after_results_simp <;> rfl
  rw [e, mid_src, mid_dst]
  exact congrArg (fun h => Cert.Mean.meanAgg (F := Ideal) h _ _) (W2_arr m ρ c 4)

/-- Its third: the own-feature half of the second weight matrix, transposed. -/
theorem in1_wown (c : Dev nD) (k : Fin 128) (q : Fin 64) :
    (V3 m ρ c main_v44 : S128x64.Idx → EReal) (ix2 k q)
      = (m ((c : Thread nD τ).loc main_arg4) : S64x256.Idx → EReal) (ix2 q (Cert.Layer.own k)) := by
  have e : (V3 m ρ c main_v44 : S128x64.Idx → EReal)
      = transpose S128x64 [1, 0] (extractStridedSlice S64x128 ![0, 0] (W2 m ρ c (Proc.devRef .tc main_arg4) : S64x256.Idx → EReal) Facts₀.slices_S64x256_S64x128_0_0) Facts₀.transposes_S64x128_S128x64_1_0 := by
    show StableHlo.after hostOps1 (W2 m ρ c) (Proc.devRef .tc main_v44) = _
    after_results <;> rfl
  rw [e, mid_w]
  refine (transpose_apply _ _ _ (ix2 k q) (ix2 q k) fun b => ?_).trans ?_
  · match b with
    | ⟨0, _⟩ => rfl
    | ⟨1, _⟩ => rfl
  · refine extractStridedSlice_apply _ _ _ (ix2 q k) (ix2 q (Cert.Layer.own k)) fun a => ?_
    match a with
    | ⟨0, _⟩ => show q.val = 0 + q.val; omega
    | ⟨1, _⟩ => show k.val = 0 + k.val; omega

/-- Its fourth: the neighbour half, transposed. -/
theorem in1_wnbr (c : Dev nD) (k : Fin 128) (q : Fin 64) :
    (V3 m ρ c main_v46 : S128x64.Idx → EReal) (ix2 k q)
      = (m ((c : Thread nD τ).loc main_arg4) : S64x256.Idx → EReal) (ix2 q (Cert.Layer.nbr k)) := by
  have e : (V3 m ρ c main_v46 : S128x64.Idx → EReal)
      = transpose S128x64 [1, 0] (extractStridedSlice S64x128 ![0, 128] (W2 m ρ c (Proc.devRef .tc main_arg4) : S64x256.Idx → EReal) Facts₀.slices_S64x256_S64x128_0_128) Facts₀.transposes_S64x128_S128x64_1_0 := by
    show StableHlo.after hostOps1 (W2 m ρ c) (Proc.devRef .tc main_v46) = _
    after_results <;> rfl
  rw [e, mid_w]
  refine (transpose_apply _ _ _ (ix2 k q) (ix2 q k) fun b => ?_).trans ?_
  · match b with
    | ⟨0, _⟩ => rfl
    | ⟨1, _⟩ => rfl
  · refine extractStridedSlice_apply _ _ _ (ix2 q k) (ix2 q (Cert.Layer.nbr k)) fun a => ?_
    match a with
    | ⟨0, _⟩ => show q.val = 0 + q.val; omega
    | ⟨1, _⟩ => show 128 + k.val = 128 + k.val; rfl

end Cert.KernelIdeal.HostSide

end
-- ==== Proof.Net.lean ====
/-
  The whole network as one function of its five arguments.

  hidden  = rectified layer of (features, mean of the features over in-neighbours) with the first weight matrix;
  result  = plain layer of (hidden, mean of hidden over in-neighbours) with the second weight matrix.
-/
import proofs.«161710_j5634997092536_1_alg».proof.Proof.Layer
import proofs.«161710_j5634997092536_1_alg».proof.Proof.Mean

noncomputable section

namespace Cert.Net

open Cert.ReferenceIdeal Idealize.ShloMosaic

variable [Cert.ReferenceIdeal.Facts]

/-- The hidden layer of the network. -/
def hid (feat : (⟨S100000x128, .f32⟩ : BufTy).Contents (Elt Ideal)) (src dst : (⟨S1600000, .i32⟩ : BufTy).Contents (Elt Ideal))
    (W0 : (⟨S128x256, .f32⟩ : BufTy).Contents (Elt Ideal)) : (⟨S100000x128, .f32⟩ : BufTy).Contents (Elt Ideal) :=
  Cert.Layer.hidden feat (Cert.Mean.meanAgg (F := Ideal) feat src dst) W0

/-- The network's result. -/
def net (feat : (⟨S100000x128, .f32⟩ : BufTy).Contents (Elt Ideal)) (src dst : (⟨S1600000, .i32⟩ : BufTy).Contents (Elt Ideal))
    (W0 : (⟨S128x256, .f32⟩ : BufTy).Contents (Elt Ideal)) (W1 : (⟨S64x256, .f32⟩ : BufTy).Contents (Elt Ideal)) :
    (⟨S100000x64, .f32⟩ : BufTy).Contents (Elt Ideal) :=
  Cert.Layer.output (hid feat src dst W0) (Cert.Mean.meanAgg (F := Ideal) (hid feat src dst W0) src dst) W1

end Cert.Net

end
-- ==== Proof.Result.lean ====
/-
  The kernel program's result, as the network's function of the launch arguments.

  The first kernel leaves the hidden layer of the node features and their neighbourhood means; the host forms the
  neighbourhood means of that hidden layer; the second kernel leaves the output layer of the two.  Each step is read
  where it happens and the three are chained here; the run of the whole program then ends with the result array at
  the network's function of the five arguments as launched.
-/
import proofs.«161710_j5634997092536_1_alg».proof.Proof.KernelRun
import proofs.«161710_j5634997092536_1_alg».proof.Proof.Region0
import proofs.«161710_j5634997092536_1_alg».proof.Proof.Region1
import proofs.«161710_j5634997092536_1_alg».proof.Proof.HostSide
import proofs.«161710_j5634997092536_1_alg».proof.Proof.Net

set_option maxRecDepth 16384

noncomputable section

namespace Cert.KernelIdeal.Result

open Cert.KernelIdeal Cert.KernelIdeal.Gen Idealize.ShloMosaic Idealize.ShloMosaic.TcCoe Idealize.SL.Sem

variable [Cert.ReferenceIdeal.Facts]
variable (m : (ℓ : Loc nD τ sig) → Buf (Elt Ideal) ℓ) (ρ : Dev nD → PrngReg)

/-- What the first kernel leaves is the network's hidden layer. -/
theorem hid_eq (c : Dev nD) :
    Cert.KernelIdeal.HostSide.hid m ρ c = Cert.Net.hid (m ((c : Thread nD τ).loc main_arg0)) (m ((c : Thread nD τ).loc main_arg1)) (m ((c : Thread nD τ).loc main_arg2)) (m ((c : Thread nD τ).loc main_arg3)) := by
  unfold Cert.Net.hid
  refine (Cert.KernelIdeal.Region0.final (V1 m ρ) c (m ((c : Thread nD τ).loc main_arg3))
    (Cert.KernelIdeal.HostSide.in0_wown m ρ c) (Cert.KernelIdeal.HostSide.in0_wnbr m ρ c)).trans ?_
  rw [Cert.KernelIdeal.HostSide.in0_feat, Cert.KernelIdeal.HostSide.in0_mean]

/-- What the second kernel leaves is the network's result. -/
theorem out_eq (c : Dev nD) :
    W4 m ρ c (Proc.devRef .tc main_v47) = Cert.Net.net (m ((c : Thread nD τ).loc main_arg0)) (m ((c : Thread nD τ).loc main_arg1)) (m ((c : Thread nD τ).loc main_arg2)) (m ((c : Thread nD τ).loc main_arg3)) (m ((c : Thread nD τ).loc main_arg4)) := by
  unfold Cert.Net.net
  refine (W4_arr m ρ c 4).trans ?_
  refine (Cert.KernelIdeal.Region1.final (V3 m ρ) c (m ((c : Thread nD τ).loc main_arg4))
    (Cert.KernelIdeal.HostSide.in1_wown m ρ c) (Cert.KernelIdeal.HostSide.in1_wnbr m ρ c)).trans ?_
  rw [Cert.KernelIdeal.HostSide.in1_hid, Cert.KernelIdeal.HostSide.in1_mean, hid_eq]

/-- The run: every weakly fair execution terminates, nothing faulting, the result array at the network's function of
    the arguments and the arguments unchanged. -/
theorem run : θ_run defs (onTc (τ := τ) (main (F := Ideal))) ⟨m, fun _ => 0, ρ⟩ (fun r => ∀ c : Dev nD,
      r.2.mem ((c.tc : Thread nD τ).loc main_v47) = Cert.Net.net (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (out_eq m ρ c), (h c).2⟩) (Cert.KernelIdeal.Run.run_main m ρ)

end Cert.KernelIdeal.Result

end
-- ==== Proof.RefLayers.lean ====
/-
  The reference's two layers, read as plain mathematics.

  The reference forms, for each layer, the 256-wide rows [x(i, ·), y(i, ·)] — a node's own features beside the mean of
  its in-neighbours' features — and contracts them with the transposed weight matrix in one sum of 256 terms.  Here
  that sum is read entry by entry: the first 128 columns of the joined row are x's, the last 128 are y's, the
  transposed weight at (k, j) is W(j, k), so entry (i, j) is

      ∑ₖ x(i, k) · W(j, k)  +  ∑ₖ y(i, k) · W(j, 128 + k),        k < 128,

  the layer of Layer.lean.  The hidden layer takes the maximum with zero afterwards; the output layer does not.  The
  mean y is, in both layers, the one host chain of Mean.lean, applied first to the input features and then to the
  hidden layer; nothing here looks inside it.
-/
import proofs.«161710_j5634997092536_1_alg».proof.Proof.Gen.ReferenceIdeal.Read
import proofs.«161710_j5634997092536_1_alg».proof.Proof.Layer
import proofs.«161710_j5634997092536_1_alg».proof.Proof.Mean
import proofs.«161710_j5634997092536_1_alg».proof.Proof.LibPlainDot
import Idealize.ShloMosaic.Lib.Pipeline.Value
import Idealize.ShloMosaic.Lib.ValueIdx
import Idealize.ShloMosaic.PureOps.Ideal.Laws

noncomputable section

open scoped BigOperators

namespace Cert.RefLayers

open Cert.ReferenceIdeal Cert.ReferenceIdeal.Read Idealize.ShloMosaic Idealize.ShloMosaic.ValueIdx

variable [Cert.ReferenceIdeal.Facts]

/-! ## The mean aggregation is the shared chain -/

/-- The first mean, of the input features, is the shared chain: the same operations on the same records. -/
theorem mean_first {F : FTy → Type} [FloatOps F] (x0 : (⟨S100000x128, .f32⟩ : BufTy).Contents (Elt F))
    (x1 x2 : (⟨S1600000, .i32⟩ : BufTy).Contents (Elt F)) :
    val_main_v18 (F := F) x0 x1 x2 = Cert.Mean.meanAgg (F := F) x0 x1 x2 := by
  unfold val_main_v18 val_main_v9 val_main_v17 val_main_v16 val_main_v15 val_main_v13 val_main_v14 val_main_v12
    val_main_v11 val_main_v10 val_main_v8 val_main_v7 val_main_v6 val_main_v5 val_main_v4 val_main_v3 val_main_v2
    val_main_v1 val_main_v0 val_main_c val_main_c_0 val_main_cst val_main_cst_1 val_main_cst_2 val_main_cst_3
    Cert.Mean.meanAgg
  rfl

/-- The second mean, of the hidden layer, is the same chain applied to the hidden layer. -/
theorem mean_second {F : FTy → Type} [FloatOps F] (x0 : (⟨S100000x128, .f32⟩ : BufTy).Contents (Elt F))
    (x1 x2 : (⟨S1600000, .i32⟩ : BufTy).Contents (Elt F)) (x3 : (⟨S128x256, .f32⟩ : BufTy).Contents (Elt F)) :
    val_main_v41 (F := F) x0 x1 x2 x3 = Cert.Mean.meanAgg (F := F) (val_main_v22 (F := F) x0 x1 x2 x3) x1 x2 := by
  unfold val_main_v41 val_main_v32 val_main_v40 val_main_v39 val_main_v38 val_main_v36 val_main_v37 val_main_v35
    val_main_v34 val_main_v33 val_main_v31 val_main_v30 val_main_v29 val_main_v28 val_main_v27 val_main_v26
    val_main_v25 val_main_v24 val_main_v23 val_main_c_4 val_main_c_5 val_main_cst_6 val_main_cst_7 val_main_cst_8
    val_main_cst_9 Cert.Mean.meanAgg
  generalize val_main_v22 (F := F) x0 x1 x2 x3 = h
  rfl

/-! ## A joined row contracted with a weight row -/

/-- Column k < 128 of the joined row [x(p, ·), y(p, ·)] is x(p, k). -/
theorem joined_own (x y : (⟨S100000x128, .f32⟩ : BufTy).Contents (Elt Ideal))
    (h : Shape.Concatenates [S100000x128, S100000x128] S100000x256 1) (p : Fin 100000) (k : Fin 128) :
    concatenate S100000x256 1 [⟨S100000x128, x⟩, ⟨S100000x128, y⟩] h (ix2 p (Cert.Layer.own k)) = x (ix2 p k) :=
  concatenate_pair_apply_left 1 x y h (ix2 p (Cert.Layer.own k)) rfl (ix2 p k)
    (fun b => match b with
      | ⟨0, _⟩ => rfl
      | ⟨1, _⟩ => rfl)

/-- Column 128 + k of the joined row [x(p, ·), y(p, ·)] is y(p, k). -/
theorem joined_nbr (x y : (⟨S100000x128, .f32⟩ : BufTy).Contents (Elt Ideal))
    (h : Shape.Concatenates [S100000x128, S100000x128] S100000x256 1) (p : Fin 100000) (k : Fin 128) :
    concatenate S100000x256 1 [⟨S100000x128, x⟩, ⟨S100000x128, y⟩] h (ix2 p (Cert.Layer.nbr k)) = y (ix2 p k) :=
  concatenate_pair_apply_right 1 x y h (ix2 p (Cert.Layer.nbr k)) rfl rfl (ix2 p k)
    (fun b hb => match b, hb with
      | ⟨0, _⟩, _ => rfl
      | ⟨1, _⟩, hb => absurd rfl hb)
    (by show k.val + 128 = 128 + k.val; omega)

/-- The 256-term contraction of the joined row (p, ·) with weight row q is the layer's two 128-term sums. -/
theorem joined_sum {D : Nat} (x y : (⟨S100000x128, .f32⟩ : BufTy).Contents (Elt Ideal))
    (W : (⟨2, ![D, 256]⟩ : Shape).Idx → EReal)
    (h : Shape.Concatenates [S100000x128, S100000x128] S100000x256 1) (p : Fin 100000) (q : Fin D) :
    ∑ k : Fin 256, concatenate S100000x256 1 [⟨S100000x128, x⟩, ⟨S100000x128, y⟩] h (ix2 p k) * W (ix2 q k)
      = Cert.Layer.pre x y W p q := by
  rw [Cert.Layer.sum_split]
  unfold Cert.Layer.pre
  congr 1
  · refine Finset.sum_congr rfl fun k _ => ?_
    rw [joined_own]
  · refine Finset.sum_congr rfl fun k _ => ?_
    rw [joined_nbr]

/-! ## The two layers -/

/-- The hidden layer: the rectified contraction of [features, first mean] with the first weight matrix. -/
theorem hidden_eq (x0 : (⟨S100000x128, .f32⟩ : BufTy).Contents (Elt Ideal))
    (x1 x2 : (⟨S1600000, .i32⟩ : BufTy).Contents (Elt Ideal)) (x3 : (⟨S128x256, .f32⟩ : BufTy).Contents (Elt Ideal)) :
    val_main_v22 (F := Ideal) x0 x1 x2 x3 = Cert.Layer.hidden x0 (val_main_v18 (F := Ideal) x0 x1 x2) x3 := by
  funext i
  obtain ⟨p, q, rfl⟩ : ∃ (p : Fin 100000) (q : Fin 128), i = ix2 p q := ⟨i 0, i 1, eq_ix2 i⟩
  rw [Cert.Layer.hidden_apply, val_main_v22_apply, val_main_call0_v0_apply, val_main_call0_cst_apply,
    val_main_v21_apply, Ideal.maximumf_def, Ideal.ofBits_def, Ideal.ofBits_zero_f32]
  congr 1
  unfold val_main_v19
  refine Eq.trans (Finset.sum_congr rfl fun k _ => ?_) (joined_sum x0 (val_main_v18 (F := Ideal) x0 x1 x2) x3
      Facts₀.concatenates_S100000x128_S100000x128_S100000x256_d1 p q)
  -- the contraction's operand indices at (p, q) and k are (p, k) and (k, q); the transposed weight there is W(q, k)
  have e1 : lidx_main_v21 (ix2 p q) k = ix2 p k := funext fun a => match a with
    | ⟨0, _⟩ => rfl
    | ⟨1, _⟩ => rfl
  have e2 : idx_main_v20 (ridx_main_v21 (ix2 p q) k) = ix2 q k := funext fun a => match a with
    | ⟨0, _⟩ => rfl
    | ⟨1, _⟩ => rfl
  rw [val_main_v20_apply, e1, e2]

/-- The output layer: the contraction of [hidden, second mean] with the second weight matrix, no rectifier. -/
theorem output_eq (x0 : (⟨S100000x128, .f32⟩ : BufTy).Contents (Elt Ideal))
    (x1 x2 : (⟨S1600000, .i32⟩ : BufTy).Contents (Elt Ideal)) (x3 : (⟨S128x256, .f32⟩ : BufTy).Contents (Elt Ideal))
    (x4 : (⟨S64x256, .f32⟩ : BufTy).Contents (Elt Ideal)) :
    val_main_v44 (F := Ideal) x0 x1 x2 x3 x4
      = Cert.Layer.output (val_main_v22 (F := Ideal) x0 x1 x2 x3) (val_main_v41 (F := Ideal) x0 x1 x2 x3) x4 := by
  funext i
  obtain ⟨p, q, rfl⟩ : ∃ (p : Fin 100000) (q : Fin 64), i = ix2 p q := ⟨i 0, i 1, eq_ix2 i⟩
  rw [Cert.Layer.output_apply, val_main_v44_apply]
  unfold val_main_v42
  refine Eq.trans (Finset.sum_congr rfl fun k _ => ?_)
    (joined_sum (val_main_v22 (F := Ideal) x0 x1 x2 x3) (val_main_v41 (F := Ideal) x0 x1 x2 x3) x4
      Facts₀.concatenates_S100000x128_S100000x128_S100000x256_d1 p q)
  have e1 : lidx_main_v44 (ix2 p q) k = ix2 p k := funext fun a => match a with
    | ⟨0, _⟩ => rfl
    | ⟨1, _⟩ => rfl
  have e2 : idx_main_v43 (ridx_main_v44 (ix2 p q) k) = ix2 q k := funext fun a => match a with
    | ⟨0, _⟩ => rfl
    | ⟨1, _⟩ => rfl
  rw [val_main_v43_apply, e1, e2]

/-- The reference's result: the output layer over the hidden layer, each with its mean by the shared chain. -/
theorem result_eq (x0 : (⟨S100000x128, .f32⟩ : BufTy).Contents (Elt Ideal))
    (x1 x2 : (⟨S1600000, .i32⟩ : BufTy).Contents (Elt Ideal)) (x3 : (⟨S128x256, .f32⟩ : BufTy).Contents (Elt Ideal))
    (x4 : (⟨S64x256, .f32⟩ : BufTy).Contents (Elt Ideal)) :
    val_main_v44 (F := Ideal) x0 x1 x2 x3 x4
      = Cert.Layer.output (Cert.Layer.hidden x0 (Cert.Mean.meanAgg (F := Ideal) x0 x1 x2) x3)
          (Cert.Mean.meanAgg (F := Ideal) (Cert.Layer.hidden x0 (Cert.Mean.meanAgg (F := Ideal) x0 x1 x2) x3) x1 x2) x4 := by
  rw [output_eq, mean_second, hidden_eq, mean_first]

end Cert.RefLayers

end
-- ==== Proof.lean ====
/- The proof of `Cert.Claim`: a two-layer graph network — each layer a linear map of a node's own features laid beside
   the mean of its in-neighbours' features — computed by two tiled kernels over split weight halves, against the
   reference that concatenates and contracts once.

   The three frames: the two kernel programs' are the generated frame certificates; the reference's is its generated
   run with the result dropped.  No operation was rewritten by the idealization, so there is nothing to preserve.
   The value claim: at the exact instance both programs end with the result array at ONE function of the five
   arguments, `Cert.Net.net` (Proof/Net.lean) — the kernel program by reading each kernel's twenty row blocks and the
   host operations between them (Proof/Result.lean), the reference by reading its operations at an index
   (Proof/RefLayers.lean).  The two meet through one law only: a sum over 256 concatenated columns is the sum over the
   first 128 plus the sum over the last 128 (Proof/Layer.lean), which needs no finiteness; the mean aggregation is the
   same host chain in both and is never opened (Proof/Mean.lean). -/
import proofs.«161710_j5634997092536_1_alg».proof.Defs
import proofs.«161710_j5634997092536_1_alg».proof.Proof.Gen.Kernel
import proofs.«161710_j5634997092536_1_alg».proof.Proof.Gen.Kernel.Skeleton
import proofs.«161710_j5634997092536_1_alg».proof.Proof.Gen.Kernel.Launch
import proofs.«161710_j5634997092536_1_alg».proof.Proof.Gen.Kernel.Points
import proofs.«161710_j5634997092536_1_alg».proof.Proof.Gen.Kernel.Frame
import proofs.«161710_j5634997092536_1_alg».proof.Proof.Gen.KernelIdeal
import proofs.«161710_j5634997092536_1_alg».proof.Proof.Gen.KernelIdeal.Skeleton
import proofs.«161710_j5634997092536_1_alg».proof.Proof.Gen.KernelIdeal.Launch
import proofs.«161710_j5634997092536_1_alg».proof.Proof.Gen.KernelIdeal.Points
import proofs.«161710_j5634997092536_1_alg».proof.Proof.Gen.KernelIdeal.Frame
import proofs.«161710_j5634997092536_1_alg».proof.Proof.Gen.ReferenceIdeal
import proofs.«161710_j5634997092536_1_alg».proof.Proof.Gen.Pre_finite_inputs
import proofs.«161710_j5634997092536_1_alg».proof.Proof.Gen.ReferenceIdeal.Run
import proofs.«161710_j5634997092536_1_alg».proof.Proof.Gen.ReferenceIdeal.Read
import proofs.«161710_j5634997092536_1_alg».proof.Proof.Result
import proofs.«161710_j5634997092536_1_alg».proof.Proof.RefLayers
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both programs end with the result array at the network's function of arguments that agree. -/
theorem algebraic : Cert.algebraic_KernelIdeal_ReferenceIdeal := by
  intro m ρ m' ρ' _ hagree
  refine ⟨fun c => Cert.Net.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v44_eq, Cert.RefLayers.result_eq, (hagree c).1, (hagree c).2.1, (hagree c).2.2.1,
    (hagree c).2.2.2.1, (hagree c).2.2.2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
